-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S128x256 .f32) (main_arg3 : FVec F S128x256 .f32) (main_arg4 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S256 : Shape := ⟨1, ![256]⟩
abbrev S100000 : Shape := ⟨1, ![100000]⟩
abbrev S1x100000 : Shape := ⟨2, ![1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1700000x1 : Shape := ⟨2, ![1700000, 1]⟩
abbrev S256x256 : Shape := ⟨2, ![256, 256]⟩
abbrev S2000x256 : Shape := ⟨2, ![2000, 256]⟩
abbrev S100000x128 : Shape := ⟨2, ![100000, 128]⟩
abbrev S1700000x128 : Shape := ⟨2, ![1700000, 128]⟩
abbrev S1x256 : Shape := ⟨2, ![1, 256]⟩

abbrev nBuf : Space → Nat
  | .hbm => 101
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S100000, .i32⟩
  | .hbm, ⟨6, _⟩ => ⟨S1x100000, .i32⟩
  | .hbm, ⟨7, _⟩ => ⟨S1x100000, .i32⟩
  | .hbm, ⟨8, _⟩ => ⟨S2x100000, .i32⟩
  | .hbm, ⟨9, _⟩ => ⟨S2x1700000, .i32⟩
  | .hbm, ⟨10, _⟩ => ⟨S1x1700000, .i32⟩
  | .hbm, ⟨11, _⟩ => ⟨S1700000, .i32⟩
  | .hbm, ⟨12, _⟩ => ⟨S1x1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S256x256, .f32⟩
  | .hbm, ⟨61, _⟩ => ⟨S256x256, .f32⟩
  | .hbm, ⟨62, _⟩ => ⟨S100000x256, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x128, .f32⟩
  | .hbm, ⟨90, _⟩ => ⟨S1700000x1, .f32⟩
  | .hbm, ⟨91, _⟩ => ⟨S1700000x128, .f32⟩
  | .hbm, ⟨92, _⟩ => ⟨S1700000x128, .f32⟩
  | .hbm, ⟨93, _⟩ => ⟨S_, .f32⟩
  | .hbm, ⟨94, _⟩ => ⟨S100000x128, .f32⟩
  | .hbm, ⟨95, _⟩ => ⟨S1700000x1, .i32⟩
  | .hbm, ⟨96, _⟩ => ⟨S100000x128, .f32⟩
  | .hbm, ⟨97, _⟩ => ⟨S100000x256, .f32⟩
  | .hbm, ⟨98, _⟩ => ⟨S1x256, .f32⟩
  | .hbm, ⟨99, _⟩ => ⟨S100000x256, .f32⟩
  | .hbm, ⟨100, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S128x256_S128x256_S256x256_d0 : Shape.Concatenates [S128x256, S128x256] S256x256 0
  transposes_S256x256_S256x256_1_0 : S256x256.Transposes [1, 0] S256x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S100000x256_S100000x128_0_0 : S100000x256.Slices ![0, 0] S100000x128
  slices_S100000x256_S100000x128_0_128 : S100000x256.Slices ![0, 128] S100000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x256_S2000x256_1_0_0_1_n_n_wf : DotDims.WF S2000x256 S256x256 S2000x256 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S256 : Shape := ⟨1, ![256]⟩
abbrev S100000 : Shape := ⟨1, ![100000]⟩
abbrev S1x100000 : Shape := ⟨2, ![1, 100000]⟩
abbrev S2x100000 : Shape := ⟨2, ![2, 100000]⟩
abbrev S2x1700000 : Shape := ⟨2, ![2, 1700000]⟩
abbrev S_ : Shape := ⟨0, ![]⟩
abbrev S1700000 : Shape := ⟨1, ![1700000]⟩
abbrev S1x1700000 : Shape := ⟨2, ![1, 1700000]⟩
abbrev S1700000x1 : Shape := ⟨2, ![1700000, 1]⟩
abbrev S256x128 : Shape := ⟨2, ![256, 128]⟩
abbrev S100000x128 : Shape := ⟨2, ![100000, 128]⟩
abbrev S1700000x128 : Shape := ⟨2, ![1700000, 128]⟩
abbrev S1x256 : Shape := ⟨2, ![1, 256]⟩

abbrev nBuf : Space → Nat
  | .hbm => 100
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S100000, .i32⟩
  | .hbm, ⟨6, _⟩ => ⟨S1x100000, .i32⟩
  | .hbm, ⟨7, _⟩ => ⟨S1x100000, .i32⟩
  | .hbm, ⟨8, _⟩ => ⟨S2x100000, .i32⟩
  | .hbm, ⟨9, _⟩ => ⟨S2x1700000, .i32⟩
  | .hbm, ⟨10, _⟩ => ⟨S_, .f32⟩
  | .hbm, ⟨11, _⟩ => ⟨S1700000, .f32⟩
  | .hbm, ⟨12, _⟩ => ⟨S1x1700000, .i32⟩
  | .hbm, ⟨13, _⟩ => ⟨S1700000, .i32⟩
  | .hbm, ⟨14, _⟩ => ⟨S1x1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .f32⟩
  | .hbm, ⟨43, _⟩ => ⟨S100000, .f32⟩
  | .hbm, ⟨44, _⟩ => ⟨S100000, .i1⟩
  | .hbm, ⟨45, _⟩ => ⟨S100000, .f32⟩
  | .hbm, ⟨46, _⟩ => ⟨S_, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S256x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x1, .f32⟩
  | .hbm, ⟨72, _⟩ => ⟨S1700000x128, .f32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S256x128, .f32⟩
  | .hbm, ⟨79, _⟩ => ⟨S100000x128, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x128, .f32⟩
  | .hbm, ⟨89, _⟩ => ⟨S1700000x1, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S100000x256, .f32⟩
  | .hbm, ⟨97, _⟩ => ⟨S1x256, .f32⟩
  | .hbm, ⟨98, _⟩ => ⟨S100000x256, .f32⟩
  | .hbm, ⟨99, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  bcast_S_S1700000 : S_.BroadcastsInDim S1700000 (![] : Fin 0 → Fin S1700000.rank)
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x256_S256x128_1_0 : S128x256.Transposes [1, 0] S256x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelHost.lean ====
/-
  The host side of the kernel's program, as functions of what it reads.

  Before the projection kernel, @main builds the edge list with one self-loop per node appended, takes its two rows (the
  target endpoint `col` and the source endpoint `row` of every edge), counts each node's in- and out-degree by a
  scatter-add of ones, turns a degree `d` into `d^(-1/2)` where `d > 0` and `0` elsewhere, and forms every edge's
  weight `ew = invSqrt(outdeg)[row] · 1 · invSqrt(indeg)[col]`; it also stacks the two weight matrices and transposes
  the stack. After the kernel it cuts the projected array into its left and right 128 columns `xf`, `xb`, and aggregates:
  `y_forward = scatter-add over col of xf[row] · ew`, `y_backward = scatter-add over row of xb[col] · ew`, laid side by
  side, plus the bias broadcast down the rows. Each of these is named below as a function of its operands, and the two
  stretches of host operations are read back, over ANY contents of the buffers they start from, as those functions.
  Nothing here depends on the float values: the statements hold at every float instance.
-/
import proofs.«125296_j34772055229049_1_alg».proof.Proof.Gen.KernelIdeal.Frame
import Idealize.ShloMosaic.Lib.StableHlo.Run

set_option maxRecDepth 16384

noncomputable section

namespace Cert.KernelIdeal.Projected

open Cert.KernelIdeal Cert.KernelIdeal.Gen
open Idealize.ShloMosaic Idealize.ShloMosaic.TcCoe Idealize.SL.Sem Idealize.ShloMosaic.StableHlo

variable {F : FTy → Type} [FloatOps F]

/-! ## The functions -/

/-- The node numbers `0 … 99999` as a row. -/
def nodeRow : (⟨S1x100000, .i32⟩ : BufTy).Contents (Elt F) :=
  broadcastInDim S1x100000 ![1] bcast_S100000_S1x100000_1 (iotaInDim S100000 32 0)

/-- One self-loop per node: both endpoints the node itself. -/
def selfLoops : (⟨S2x100000, .i32⟩ : BufTy).Contents (Elt F) :=
  concatenate S2x100000 0 [⟨S1x100000, nodeRow (F := F)⟩, ⟨S1x100000, nodeRow (F := F)⟩] concatenates_S1x100000_S1x100000_S2x100000_d0

/-- The edge list with the self-loops appended. -/
def edges (ei : (⟨S2x1600000, .i32⟩ : BufTy).Contents (Elt F)) : (⟨S2x1700000, .i32⟩ : BufTy).Contents (Elt F) :=
  concatenate S2x1700000 1 [⟨S2x1600000, ei⟩, ⟨S2x100000, selfLoops (F := F)⟩] concatenates_S2x1600000_S2x100000_S2x1700000_d1

/-- Row 0 of the edge list: every edge's `col` endpoint. -/
def endpoint0 (e : (⟨S2x1700000, .i32⟩ : BufTy).Contents (Elt F)) : (⟨S1700000, .i32⟩ : BufTy).Contents (Elt F) :=
  shapeCast S1700000 (extractStridedSlice S1x1700000 ![0, 0] e slices_S2x1700000_S1x1700000_0_0) shapeCasts_S1x1700000_S1700000

/-- Row 1 of the edge list: every edge's `row` endpoint. -/
def endpoint1 (e : (⟨S2x1700000, .i32⟩ : BufTy).Contents (Elt F)) : (⟨S1700000, .i32⟩ : BufTy).Contents (Elt F) :=
  shapeCast S1700000 (extractStridedSlice S1x1700000 ![1, 0] e slices_S2x1700000_S1x1700000_1_0) shapeCasts_S1x1700000_S1700000

/-- Every edge's unit weight. -/
def ones : (⟨S1700000, .f32⟩ : BufTy).Contents (Elt F) :=
  broadcastInDim S1700000 ![] bcast_S_S1700000 (constant S_ .f32 0x3F800000#32)

/-- A node's degree: the ones of the edges whose endpoint it is, added up. -/
def degree (idx : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 idx) (ones (F := F))

/-- `d^(-1/2)` where `d > 0`, and `0` elsewhere. -/
def invSqrt (d : (⟨S100000, .f32⟩ : BufTy).Contents (Elt F)) : (⟨S100000, .f32⟩ : BufTy).Contents (Elt F) :=
  select (cmpf .ogt d (broadcastInDim S100000 ![] bcast_S_S100000 (constant S_ .f32 0x00000000#32))) (Host.rsqrt d)
    (broadcastInDim S100000 ![] bcast_S_S100000 (id (constant S_ .f32 0x00000000#32)))

/-- An endpoint read the way an array index is read: a negative one counts from the end of the 100000 nodes. -/
def wrapped (i : (⟨S1700000, .i32⟩ : BufTy).Contents (Elt F)) : (⟨S1700000, .i32⟩ : BufTy).Contents (Elt F) :=
  select (cmpi .slt i (broadcastInDim S1700000 ![] bcast_S_S1700000 (constantI S_ 32 0#32)))
    (addi i (broadcastInDim S1700000 ![] bcast_S_S1700000 (constantI S_ 32 100000#32))) i

/-- A per-node value read at every edge's endpoint. -/
def atEndpoint (v : (⟨S100000, .f32⟩ : BufTy).Contents (Elt F)) (idx : (⟨S1700000, .i32⟩ : BufTy).Contents (Elt F)) :
    (⟨S1700000, .f32⟩ : BufTy).Contents (Elt F) :=
  Host.gather gather_S100000_S1700000x1_S1700000_n_0_n_n_0_1_1 v
    (broadcastInDim S1700000x1 ![0] bcast_S1700000_S1700000x1_0 (wrapped idx))

/-- Every edge's weight: `invSqrt(outdeg)[row] · 1 · invSqrt(indeg)[col]`. -/
def edgeWeight (col row : (⟨S1700000, .i32⟩ : BufTy).Contents (Elt F)) : (⟨S1700000, .f32⟩ : BufTy).Contents (Elt F) :=
  mulf (mulf (atEndpoint (invSqrt (degree row)) row) (ones (F := F))) (atEndpoint (invSqrt (degree col)) col)

/-- The two weight matrices stacked by rows, transposed. -/
def stacked (wf wb : (⟨S128x256, .f32⟩ : BufTy).Contents (Elt F)) : (⟨S256x256, .f32⟩ : BufTy).Contents (Elt F) :=
  transpose S256x256 [1, 0] (concatenate S256x256 0 [⟨S128x256, wf⟩, ⟨S128x256, wb⟩] concatenates_S128x256_S128x256_S256x256_d0)
    transposes_S256x256_S256x256_1_0

/-- One direction's aggregation: the rows of `h` at every edge's `src` endpoint, times the edge's weight, added up at
    its `dst` endpoint. -/
def agg (dst src : (⟨S1700000, .i32⟩ : BufTy).Contents (Elt F)) (h : (⟨S100000x128, .f32⟩ : BufTy).Contents (Elt F))
    (ew : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (Host.gather gather_S100000x128_S1700000x1_S1700000x128_1_0_n_n_0_1_1128 h
            (broadcastInDim S1700000x1 ![0] bcast_S1700000_S1700000x1_0 (wrapped src)))
          (broadcastInDim S1700000x128 ![0, 1] bcast_S1700000x1_S1700000x128_0_1
            (broadcastInDim S1700000x1 ![0] bcast_S1700000_S1700000x1_0 ew)))

/-- The result: the two aggregations side by side, plus the bias down the rows. -/
def combine (yf yb : (⟨S100000x128, .f32⟩ : BufTy).Contents (Elt F)) (bias : (⟨S256, .f32⟩ : BufTy).Contents (Elt F)) :
    (⟨S100000x256, .f32⟩ : BufTy).Contents (Elt F) :=
  addf (concatenate S100000x256 1 [⟨S100000x128, yf⟩, ⟨S100000x128, yb⟩] concatenates_S100000x128_S100000x128_S100000x256_d1)
    (broadcastInDim S100000x256 ![0, 1] bcast_S1x256_S100000x256_0_1 (broadcastInDim S1x256 ![1] bcast_S256_S1x256_1 bias))

/-- Everything after the two projections, as one function of the endpoints, the edge weights, the two projected
    arrays and the bias. -/
def tail (col row : (⟨S1700000, .i32⟩ : BufTy).Contents (Elt F)) (ew : (⟨S1700000, .f32⟩ : BufTy).Contents (Elt F))
    (xf xb : (⟨S100000x128, .f32⟩ : BufTy).Contents (Elt F)) (bias : (⟨S256, .f32⟩ : BufTy).Contents (Elt F)) :
    (⟨S100000x256, .f32⟩ : BufTy).Contents (Elt F) :=
  combine (agg col row xf ew) (agg row col xb ew) bias

/-! ## Cutting a list of host operations -/

theorem after_cut (n : Nat) (ops : List (HloOp τ sig (Elt F))) (M : Valuation τ sig (Elt F)) :
    StableHlo.after ops M = StableHlo.after (ops.drop n) (StableHlo.after (ops.take n) M) := by
  rw [← StableHlo.after_append, List.take_append_drop]

/-! ## The operations before the kernel -/

/-- The host operations before the kernel, in order, as one list. -/
abbrev pre : List (HloOp τ sig (Elt F)) := List.flatten [hostOps0, hostOps0_1, hostOps0_2, hostOps0_3, hostOps0_4]

set_option maxHeartbeats 8000000 in
/-- The first five operations build the edge list with self-loops. -/
theorem pre_edges (M : Valuation τ sig (Elt F)) :
    StableHlo.after ((pre (F := F)).take 5) M (Proc.devRef .tc main_v4) = edges (M (Proc.devRef .tc main_arg1)) := by
  simp only [pre, hostOps0, hostOps0_1, hostOps0_2, hostOps0_3, hostOps0_4, List.flatten_cons, List.flatten_nil, List.append_nil, List.cons_append, List.nil_append, List.take_succ_cons, List.take_zero]
  after_results
  rfl

set_option maxHeartbeats 8000000 in
theorem pre_col (W : Valuation τ sig (Elt F)) :
    StableHlo.after ((pre (F := F)).drop 5) W (Proc.devRef .tc main_v6) = endpoint0 (W (Proc.devRef .tc main_v4)) := by
  simp only [pre, hostOps0, hostOps0_1, hostOps0_2, hostOps0_3, hostOps0_4, List.flatten_cons, List.flatten_nil, List.append_nil, List.cons_append, List.nil_append, List.drop_succ_cons, List.drop_zero]
  after_results_simp <;> rfl

set_option maxHeartbeats 8000000 in
theorem pre_row (W : Valuation τ sig (Elt F)) :
    StableHlo.after ((pre (F := F)).drop 5) W (Proc.devRef .tc main_v8) = endpoint1 (W (Proc.devRef .tc main_v4)) := by
  simp only [pre, hostOps0, hostOps0_1, hostOps0_2, hostOps0_3, hostOps0_4, List.flatten_cons, List.flatten_nil, List.append_nil, List.cons_append, List.nil_append, List.drop_succ_cons, List.drop_zero]
  after_results_simp <;> rfl

set_option maxHeartbeats 16000000 in
theorem pre_weight (W : Valuation τ sig (Elt F)) :
    StableHlo.after ((pre (F := F)).drop 5) W (Proc.devRef .tc main_v39)
      = edgeWeight (endpoint0 (W (Proc.devRef .tc main_v4))) (endpoint1 (W (Proc.devRef .tc main_v4))) := by
  simp only [pre, hostOps0, hostOps0_1, hostOps0_2, hostOps0_3, hostOps0_4, List.flatten_cons, List.flatten_nil, List.append_nil, List.cons_append, List.nil_append, List.drop_succ_cons, List.drop_zero]
  after_results_simp <;> (try simp only [TRef.ofBuf, TRef.toBuf, cast_eq]) <;> rfl

set_option maxHeartbeats 8000000 in
/-- The first 55 operations leave the two weight matrices as they were. -/
theorem pre_keeps_wf (M : Valuation τ sig (Elt F)) :
    StableHlo.after ((pre (F := F)).take 55) M (Proc.devRef .tc main_arg2) = M (Proc.devRef .tc main_arg2) := by
  simp only [pre, hostOps0, hostOps0_1, hostOps0_2, hostOps0_3, hostOps0_4, List.flatten_cons, List.flatten_nil, List.append_nil, List.cons_append, List.nil_append, List.take_succ_cons, List.take_zero]
  after_results_simp <;> rfl

set_option maxHeartbeats 8000000 in
theorem pre_keeps_wb (M : Valuation τ sig (Elt F)) :
    StableHlo.after ((pre (F := F)).take 55) M (Proc.devRef .tc main_arg3) = M (Proc.devRef .tc main_arg3) := by
  simp only [pre, hostOps0, hostOps0_1, hostOps0_2, hostOps0_3, hostOps0_4, List.flatten_cons, List.flatten_nil, List.append_nil, List.cons_append, List.nil_append, List.take_succ_cons, List.take_zero]
  after_results_simp <;> rfl

set_option maxHeartbeats 8000000 in
/-- The last two stack the weight matrices and transpose the stack. -/
theorem pre_stacked (W : Valuation τ sig (Elt F)) :
    StableHlo.after ((pre (F := F)).drop 55) W (Proc.devRef .tc main_v41)
      = stacked (W (Proc.devRef .tc main_arg2)) (W (Proc.devRef .tc main_arg3)) := by
  simp only [pre, hostOps0, hostOps0_1, hostOps0_2, hostOps0_3, hostOps0_4, List.flatten_cons, List.flatten_nil, List.append_nil, List.cons_append, List.nil_append, List.drop_succ_cons, List.drop_zero]
  after_results
  rfl

/-! ### The same, of the arrays the region finds -/

variable (m : (ℓ : Loc nD τ sig) → Buf (Elt F) ℓ)

theorem col_eq (c : Dev nD) : V m c main_v6 = endpoint0 (edges (m ((c : Thread nD τ).loc main_arg1))) := by
  show StableHlo.after (pre (F := F)) (fun b => m (c, b)) (Proc.devRef .tc main_v6) = _
  rw [after_cut 5, pre_col, pre_edges]

theorem row_eq (c : Dev nD) : V m c main_v8 = endpoint1 (edges (m ((c : Thread nD τ).loc main_arg1))) := by
  show StableHlo.after (pre (F := F)) (fun b => m (c, b)) (Proc.devRef .tc main_v8) = _
  rw [after_cut 5, pre_row, pre_edges]

theorem weight_eq (c : Dev nD) :
    V m c main_v39 = edgeWeight (endpoint0 (edges (m ((c : Thread nD τ).loc main_arg1))))
      (endpoint1 (edges (m ((c : Thread nD τ).loc main_arg1)))) := by
  show StableHlo.after (pre (F := F)) (fun b => m (c, b)) (Proc.devRef .tc main_v39) = _
  rw [after_cut 5, pre_weight, pre_edges]

theorem stacked_eq (c : Dev nD) :
    V m c main_v41 = stacked (m ((c : Thread nD τ).loc main_arg2)) (m ((c : Thread nD τ).loc main_arg3)) := by
  show StableHlo.after (pre (F := F)) (fun b => m (c, b)) (Proc.devRef .tc main_v41) = _
  rw [after_cut 55, pre_stacked, pre_keeps_wf, pre_keeps_wb]

/-! ## The operations after the kernel -/

set_option maxHeartbeats 8000000 in
theorem post_forward (W : Valuation τ sig (Elt F)) :
    StableHlo.after ((hostOps1 (F := F)).take 34) W (Proc.devRef .tc main_v57)
      = agg (W (Proc.devRef .tc main_v6)) (W (Proc.devRef .tc main_v8))
          (extractStridedSlice S100000x128 ![0, 0] (W (Proc.devRef .tc main_v42)) slices_S100000x256_S100000x128_0_0)
          (W (Proc.devRef .tc main_v39)) := by
  simp only [hostOps1, List.take_succ_cons, List.take_zero]
  after_results_simp <;> rfl

set_option maxHeartbeats 8000000 in
theorem post_backward (W : Valuation τ sig (Elt F)) :
    StableHlo.after ((hostOps1 (F := F)).take 34) W (Proc.devRef .tc main_v70)
      = agg (W (Proc.devRef .tc main_v8)) (W (Proc.devRef .tc main_v6))
          (extractStridedSlice S100000x128 ![0, 128] (W (Proc.devRef .tc main_v42)) slices_S100000x256_S100000x128_0_128)
          (W (Proc.devRef .tc main_v39)) := by
  simp only [hostOps1, List.take_succ_cons, List.take_zero]
  after_results_simp <;> rfl

set_option maxHeartbeats 8000000 in
theorem post_keeps_bias (W : Valuation τ sig (Elt F)) :
    StableHlo.after ((hostOps1 (F := F)).take 34) W (Proc.devRef .tc main_arg4) = W (Proc.devRef .tc main_arg4) := by
  simp only [hostOps1, List.take_succ_cons, List.take_zero]
  after_results_simp <;> rfl

set_option maxHeartbeats 8000000 in
theorem post_combine (W : Valuation τ sig (Elt F)) :
    StableHlo.after ((hostOps1 (F := F)).drop 34) W (Proc.devRef .tc main_v74)
      = combine (W (Proc.devRef .tc main_v57)) (W (Proc.devRef .tc main_v70)) (W (Proc.devRef .tc main_arg4)) := by
  simp only [hostOps1, List.drop_succ_cons, List.drop_zero]
  after_results
  rfl

/-- The operations after the kernel, from any contents: the result buffer ends at `tail` of six of them. -/
theorem post_eq (W : Valuation τ sig (Elt F)) :
    StableHlo.after (hostOps1 (F := F)) W (Proc.devRef .tc main_v74)
      = tail (W (Proc.devRef .tc main_v6)) (W (Proc.devRef .tc main_v8)) (W (Proc.devRef .tc main_v39))
          (extractStridedSlice S100000x128 ![0, 0] (W (Proc.devRef .tc main_v42)) slices_S100000x256_S100000x128_0_0)
          (extractStridedSlice S100000x128 ![0, 128] (W (Proc.devRef .tc main_v42)) slices_S100000x256_S100000x128_0_128)
          (W (Proc.devRef .tc main_arg4)) := by
  rw [after_cut 34, post_combine, post_forward, post_backward, post_keeps_bias]
  rfl

/-- What the frame run leaves in the result buffer: `tail` of the endpoints and edge weights computed before the
    kernel, the two halves of the kernel's output array, and the bias. -/
theorem result_eq (c : Dev nD) :
    Pipeline.afterTail₀ cfgs (dats m) 0 (V0 m) [hostOps1] c main_v74
      = tail (V m c main_v6) (V m c main_v8) (V m c main_v39)
          (extractStridedSlice S100000x128 ![0, 0] ((dats m 0 c).arrAt 2 cfg0.N) slices_S100000x256_S100000x128_0_0)
          (extractStridedSlice S100000x128 ![0, 128] ((dats m 0 c).arrAt 2 cfg0.N) slices_S100000x256_S100000x128_0_128)
          (V m c main_arg4) := by
  unfold Pipeline.afterTail₀
  simp only [List.flatten_cons, List.flatten_nil, List.append_nil]
  rw [post_eq,
    Pipeline.withArrays_of_ne _ c (V0 m c) _ main_v6 (by exact (by decide : ∀ w, Pipeline.arrRef spec0 w ≠ main_v6)),
    Pipeline.withArrays_of_ne _ c (V0 m c) _ main_v8 (by exact (by decide : ∀ w, Pipeline.arrRef spec0 w ≠ main_v8)),
    Pipeline.withArrays_of_ne _ c (V0 m c) _ main_v39 (by exact (by decide : ∀ w, Pipeline.arrRef spec0 w ≠ main_v39)),
    Pipeline.withArrays_of_ne _ c (V0 m c) _ main_arg4 (by exact (by decide : ∀ w, Pipeline.arrRef spec0 w ≠ main_arg4))]
  -- the kernel's output buffer is the third array of the pipeline: it holds what the run left there
  have hx : Pipeline.withArrays (cfgs 0).spec c (V0 m c) (fun w => (dats m 0 c).arrAt w (cfgs 0).N) (Proc.devRef .tc main_v42)
      = (dats m 0 c).arrAt 2 cfg0.N :=
    Pipeline.withArrays_arr spec0 launch0.win.arr_inj c (V0 m c) _ 2
  rw [hx]

end Cert.KernelIdeal.Projected

end
-- ==== Proof.ReferenceValue.lean ====
/-
  The reference's run, read back.

  The reference is 95 host operations and no kernel. Read in order they are: the edge list with one self-loop per node
  appended (operations 1 to 5); the endpoints, the two degree counts, the inverse square roots, the edge weights, then the
  two projections `x · Wfᵀ`, `x · Wbᵀ`, each followed by its gather, its product with the edge weights and its
  scatter-add (operations 6 to 91); and the two aggregations laid side by side plus the bias (operations 92 to 95).
  These are the functions the kernel's own host program is made of (Proof/KernelHost.lean), with the two matrix products
  in the place of the two halves of the kernel's one product; the list is cut before each concatenation of computed
  pieces and each stretch is read over ANY contents of the buffers it starts from. Nothing here depends on the float
  values: the statements hold at every float instance.
-/
import proofs.«125296_j34772055229049_1_alg».proof.Proof.RefRun
import proofs.«125296_j34772055229049_1_alg».proof.Proof.KernelHost
import Idealize.ShloMosaic.Lib.StableHlo.Run

set_option maxRecDepth 16384

noncomputable section

namespace Cert.ReferenceIdeal.RunValue

open Cert.ReferenceIdeal Cert.ReferenceIdeal.Gen Cert.ReferenceIdeal.ValueP Cert.KernelIdeal.Projected
open Idealize.ShloMosaic Idealize.ShloMosaic.TcCoe Idealize.SL.Sem Idealize.ShloMosaic.StableHlo

variable {F : FTy → Type} [FloatOps F]

/-- One projection: `x · wᵀ` for a 128×256 weight matrix `w`. -/
def projected (x : (⟨S100000x256, .f32⟩ : BufTy).Contents (Elt F)) (w : (⟨S128x256, .f32⟩ : BufTy).Contents (Elt F)) :
    (⟨S100000x128, .f32⟩ : BufTy).Contents (Elt F) :=
  Host.dotGeneral dot_S100000x256_S256x128_S100000x128_1_0_0_1_n_n none x (transpose S256x128 [1, 0] w transposes_S128x256_S256x128_1_0)

/-- The reference's result as a function of its five arguments. -/
def result (x0 : (⟨S100000x256, .f32⟩ : BufTy).Contents (Elt F)) (x1 : (⟨S2x1600000, .i32⟩ : BufTy).Contents (Elt F))
    (x2 x3 : (⟨S128x256, .f32⟩ : BufTy).Contents (Elt F)) (x4 : (⟨S256, .f32⟩ : BufTy).Contents (Elt F)) :
    (⟨S100000x256, .f32⟩ : BufTy).Contents (Elt F) :=
  tail (endpoint0 (edges x1)) (endpoint1 (edges x1)) (edgeWeight (endpoint0 (edges x1)) (endpoint1 (edges x1)))
    (projected x0 x2) (projected x0 x3) x4

/-- A list of host operations read in two stretches. -/
theorem cut (n : Nat) (l : List (HloOp τ sig (Elt F))) (M : Valuation τ sig (Elt F)) :
    StableHlo.after l M = StableHlo.after (l.drop n) (StableHlo.after (l.take n) M) := by
  rw [← StableHlo.after_append, List.take_append_drop]

/-! ## Operations 1 to 5 -/

set_option maxHeartbeats 8000000 in
theorem first_edges (M : Valuation τ sig (Elt F)) :
    StableHlo.after ((ops (F := F)).take 5) M (Proc.devRef .tc main_v4) = edges (M (Proc.devRef .tc main_arg1)) := by
  simp only [ops, List.take_succ_cons, List.take_zero]
  after_results
  rfl

set_option maxHeartbeats 8000000 in
theorem first_keeps (M : Valuation τ sig (Elt F)) :
    StableHlo.after ((ops (F := F)).take 5) M (Proc.devRef .tc main_arg0) = M (Proc.devRef .tc main_arg0)
    ∧ StableHlo.after ((ops (F := F)).take 5) M (Proc.devRef .tc main_arg2) = M (Proc.devRef .tc main_arg2)
    ∧ StableHlo.after ((ops (F := F)).take 5) M (Proc.devRef .tc main_arg3) = M (Proc.devRef .tc main_arg3)
    ∧ StableHlo.after ((ops (F := F)).take 5) M (Proc.devRef .tc main_arg4) = M (Proc.devRef .tc main_arg4) := by
  simp only [ops, List.take_succ_cons, List.take_zero]
  refine ⟨?_, ?_, ?_, ?_⟩ <;> after_results_simp <;> rfl

/-! ## Operations 6 to 91 -/

set_option maxHeartbeats 32000000 in
theorem middle_forward (W : Valuation τ sig (Elt F)) :
    StableHlo.after (((ops (F := F)).drop 5).take 86) W (Proc.devRef .tc main_v54)
      = agg (endpoint0 (W (Proc.devRef .tc main_v4))) (endpoint1 (W (Proc.devRef .tc main_v4)))
          (projected (W (Proc.devRef .tc main_arg0)) (W (Proc.devRef .tc main_arg2)))
          (edgeWeight (endpoint0 (W (Proc.devRef .tc main_v4))) (endpoint1 (W (Proc.devRef .tc main_v4)))) := by
  simp only [ops, List.drop_succ_cons, List.drop_zero, List.take_succ_cons, List.take_zero]
  after_results_simp <;> (try simp only [TRef.ofBuf, TRef.toBuf, cast_eq]) <;> rfl

set_option maxHeartbeats 32000000 in
theorem middle_backward (W : Valuation τ sig (Elt F)) :
    StableHlo.after (((ops (F := F)).drop 5).take 86) W (Proc.devRef .tc main_v69)
      = agg (endpoint1 (W (Proc.devRef .tc main_v4))) (endpoint0 (W (Proc.devRef .tc main_v4)))
          (projected (W (Proc.devRef .tc main_arg0)) (W (Proc.devRef .tc main_arg3)))
          (edgeWeight (endpoint0 (W (Proc.devRef .tc main_v4))) (endpoint1 (W (Proc.devRef .tc main_v4)))) := by
  simp only [ops, List.drop_succ_cons, List.drop_zero, List.take_succ_cons, List.take_zero]
  after_results_simp <;> (try simp only [TRef.ofBuf, TRef.toBuf, cast_eq]) <;> rfl

set_option maxHeartbeats 8000000 in
theorem middle_keeps_bias (W : Valuation τ sig (Elt F)) :
    StableHlo.after (((ops (F := F)).drop 5).take 86) W (Proc.devRef .tc main_arg4) = W (Proc.devRef .tc main_arg4) := by
  simp only [ops, List.drop_succ_cons, List.drop_zero, List.take_succ_cons, List.take_zero]
  after_results_simp <;> rfl

/-! ## Operations 92 to 95 -/

set_option maxHeartbeats 8000000 in
theorem last_combine (W : Valuation τ sig (Elt F)) :
    StableHlo.after (((ops (F := F)).drop 5).drop 86) W (Proc.devRef .tc main_v73)
      = combine (W (Proc.devRef .tc main_v54)) (W (Proc.devRef .tc main_v69)) (W (Proc.devRef .tc main_arg4)) := by
  simp only [ops, List.drop_succ_cons, List.drop_zero]
  after_results
  rfl

/-! ## The whole list -/

/-- From any contents, the result buffer ends at `result` of the five argument buffers. -/
theorem value (M : Valuation τ sig (Elt F)) :
    StableHlo.after (ops (F := F)) M (Proc.devRef .tc main_v73)
      = result (M (Proc.devRef .tc main_arg0)) (M (Proc.devRef .tc main_arg1)) (M (Proc.devRef .tc main_arg2))
          (M (Proc.devRef .tc main_arg3)) (M (Proc.devRef .tc main_arg4)) := by
  obtain ⟨k0, k2, k3, k4⟩ := first_keeps M
  rw [cut 5, cut 86 ((ops (F := F)).drop 5), last_combine, middle_forward, middle_backward, middle_keeps_bias,
    first_edges, k0, k2, k3, k4]
  rfl

set_option maxHeartbeats 16000000 in
/-- No operation writes an argument buffer. -/
theorem keeps (M : Valuation τ sig (Elt F)) :
    StableHlo.after (ops (F := F)) M (Proc.devRef .tc main_arg0) = M (Proc.devRef .tc main_arg0)
    ∧ StableHlo.after (ops (F := F)) M (Proc.devRef .tc main_arg1) = M (Proc.devRef .tc main_arg1)
    ∧ StableHlo.after (ops (F := F)) M (Proc.devRef .tc main_arg2) = M (Proc.devRef .tc main_arg2)
    ∧ StableHlo.after (ops (F := F)) M (Proc.devRef .tc main_arg3) = M (Proc.devRef .tc main_arg3)
    ∧ StableHlo.after (ops (F := F)) M (Proc.devRef .tc main_arg4) = M (Proc.devRef .tc main_arg4) := by
  refine ⟨?_, ?_, ?_, ?_, ?_⟩ <;> after_results_simp <;> rfl

/-! ## The run -/

set_option maxRecDepth 16384 in
set_option maxHeartbeats 16000000 in
/-- On every device, for any float values, from any memory with zero counters: every weakly fair execution of the
    reference terminates with its result at `result` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v73).trans (value (launchContents m c)),
      (h c main_arg0).trans (keeps (launchContents m c)).1,
      (h c main_arg1).trans (keeps (launchContents m c)).2.1,
      (h c main_arg2).trans (keeps (launchContents m c)).2.2.1,
      (h c main_arg3).trans (keeps (launchContents m c)).2.2.2.1,
      (h c main_arg4).trans (keeps (launchContents m c)).2.2.2.2⟩)
    (run_seq scopedRefs_eq scopedSems_eq defs main (fun _ => ops) main_eq (fun _ => ops_sub) m ρ)

end Cert.ReferenceIdeal.RunValue

end
-- ==== Proof.LibPlainMatmul.lean ====
/-
  A matrix product into a zero accumulator, read at an entry, over the extended reals.

  For the dimension numbers of a plain product, rows by contraction times contraction by columns
  (`DotDims.plain M K N`: the left operand contracted on its second axis, the right on its first, no batch
  axis), the entry `(r, c)` of `lhs · rhs + 0` is the sum over the contraction coordinate `k : Fin K` of
  `lhs (r, k) * rhs (k, c)`. Generic in the three extents and in the operands' float formats.
-/
import Idealize.ShloMosaic.PureOps.Ideal.Laws
import Idealize.ShloMosaic.Lib.ValueIdx

noncomputable section

open Idealize.ShloMosaic Idealize.ShloMosaic.ValueIdx
open scoped BigOperators

namespace Cert.PlainMatmul

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := rfl

/-- Entry `(r, c)` of a plain matrix product accumulated into zero is `∑ k, lhs (r, k) * rhs (k, c)`: the
    contraction index set has one axis of extent `K`, and the sum is re-indexed along it. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.PlainMatmul

end
-- ==== Proof.FusedProjection.lean ====
/-
  One projection with the two weight matrices stacked, against the two projections taken apart.

  Let `x` be an N×256 matrix and `Wf`, `Wb` two 128×256 matrices. Stack the weights by rows into the 256×256
  matrix `[Wf; Wb]` and transpose it: the entry `(k, q)` of `[Wf; Wb]ᵀ` is `Wf (q, k)` for `q < 128` and
  `Wb (q − 128, k)` for `q ≥ 128`. The product `P = x · [Wf; Wb]ᵀ` has `P (r, q) = ∑ k, x (r, k) * [Wf; Wb]ᵀ (k, q)`,
  so its left 128 columns hold the entries `∑ k, x (r, k) * Wf (c, k)` of `x · Wfᵀ` and its right 128 columns those of
  `x · Wbᵀ`. On both sides an entry is the SAME sum over the 256 contraction coordinates, term by term: nothing of the
  extended reals' arithmetic is used beyond reading the two sides at an index.
-/
import Idealize.ShloMosaic.Lib.ValueLayout
import Idealize.ShloMosaic.Lib.Pipeline.Value
import Idealize.ShloMosaic.Lib.StackMember
import Idealize.ShloMosaic.Lib.ValueIdx
import Idealize.ShloMosaic.PureOps.Ideal.Laws

noncomputable section

open Idealize.ShloMosaic Idealize.ShloMosaic.ValueIdx
open scoped BigOperators

namespace Cert.FusedProjection

variable {N : Nat}

/-- The product of an N×256 matrix with a 256×256 matrix as one array: entry `(r, q)` is `∑ k, x (r, k) * w (k, q)`. -/
def proj (x : FVec Ideal ⟨2, ![N, 256]⟩ .f32) (w : FVec Ideal ⟨2, ![256, 256]⟩ .f32) : FVec Ideal ⟨2, ![N, 256]⟩ .f32 :=
  fun j => ∑ k : Fin 256, x (ix2 (j 0) k) * w (ix2 k (j 1))

theorem proj_apply (x : FVec Ideal ⟨2, ![N, 256]⟩ .f32) (w : FVec Ideal ⟨2, ![256, 256]⟩ .f32) (r : Fin N) (q : Fin 256) :
    proj x w (ix2 r q) = ∑ k : Fin 256, x (ix2 r k) * w (ix2 k q) := rfl

section Stacked

variable (Wf Wb : FVec Ideal ⟨2, ![128, 256]⟩ .f32)
  (hc : Shape.Concatenates [(⟨2, ![128, 256]⟩ : Shape), ⟨2, ![128, 256]⟩] ⟨2, ![256, 256]⟩ 0)
  (ht : (⟨2, ![256, 256]⟩ : Shape).Transposes [1, 0] ⟨2, ![256, 256]⟩)

/-- A column `q < 128` of `[Wf; Wb]ᵀ` is row `q` of `Wf`. -/
theorem stackedT_left (k q : Fin 256) (c : Fin 128) (hq : q.val = c.val) :
    transpose ⟨2, ![256, 256]⟩ [1, 0]
        (concatenate ⟨2, ![256, 256]⟩ 0 [⟨⟨2, ![128, 256]⟩, Wf⟩, ⟨⟨2, ![128, 256]⟩, Wb⟩] hc) ht (ix2 k q)
      = Wf (ix2 c k) := by
  rw [transpose_ix2_apply]
  exact concatenate_pair_apply_left 0 Wf Wb hc (ix2 q k) rfl (ix2 c k)
    (fun b => match b with | ⟨0, _⟩ => hq.symm | ⟨1, _⟩ => rfl)

/-- A column `q = 128 + c` of `[Wf; Wb]ᵀ` is row `c` of `Wb`. -/
theorem stackedT_right (k q : Fin 256) (c : Fin 128) (hq : q.val = 128 + c.val) :
    transpose ⟨2, ![256, 256]⟩ [1, 0]
        (concatenate ⟨2, ![256, 256]⟩ 0 [⟨⟨2, ![128, 256]⟩, Wf⟩, ⟨⟨2, ![128, 256]⟩, Wb⟩] hc) ht (ix2 k q)
      = Wb (ix2 c k) := by
  rw [transpose_ix2_apply]
  exact concatenate_pair_apply_right 0 Wf Wb hc (ix2 q k) rfl rfl (ix2 c k)
    (fun b hb => match b, hb with
      | ⟨0, _⟩, hb => absurd rfl hb
      | ⟨1, _⟩, _ => rfl)
    (by show c.val + 128 = q.val; omega)

variable (x : FVec Ideal ⟨2, ![N, 256]⟩ .f32)
  (ht' : (⟨2, ![128, 256]⟩ : Shape).Transposes [1, 0] ⟨2, ![256, 128]⟩)

/-- The left 128 columns of `x · [Wf; Wb]ᵀ` are `x · Wfᵀ`. -/
theorem left_columns (hs : (⟨2, ![N, 256]⟩ : Shape).Slices ![0, 0] ⟨2, ![N, 128]⟩) :
    extractStridedSlice ⟨2, ![N, 128]⟩ ![0, 0]
        (proj x (transpose ⟨2, ![256, 256]⟩ [1, 0]
          (concatenate ⟨2, ![256, 256]⟩ 0 [⟨⟨2, ![128, 256]⟩, Wf⟩, ⟨⟨2, ![128, 256]⟩, Wb⟩] hc) ht)) hs
      = Host.dotGeneral (F := Ideal) (DotDims.plain N 256 128) none x (transpose ⟨2, ![256, 128]⟩ [1, 0] Wf ht') := by
  funext j
  obtain ⟨r, c, rfl⟩ : ∃ (r : Fin N) (c : Fin 128), j = ix2 r c := ⟨j 0, j 1, eq_ix2 j⟩
  rw [slice2_axis1_apply 0 _ hs r c ⟨c.val, by have := c.isLt; omega⟩ (Nat.zero_add _).symm,
    StackMember.dotGeneral_plain_apply, proj_apply]
  refine Finset.sum_congr rfl fun k _ => ?_
  rw [stackedT_left Wf Wb hc ht k _ c rfl, transpose_ix2_apply Wf ht' k c]

/-- The right 128 columns of `x · [Wf; Wb]ᵀ` are `x · Wbᵀ`. -/
theorem right_columns (hs : (⟨2, ![N, 256]⟩ : Shape).Slices ![0, 128] ⟨2, ![N, 128]⟩) :
    extractStridedSlice ⟨2, ![N, 128]⟩ ![0, 128]
        (proj x (transpose ⟨2, ![256, 256]⟩ [1, 0]
          (concatenate ⟨2, ![256, 256]⟩ 0 [⟨⟨2, ![128, 256]⟩, Wf⟩, ⟨⟨2, ![128, 256]⟩, Wb⟩] hc) ht)) hs
      = Host.dotGeneral (F := Ideal) (DotDims.plain N 256 128) none x (transpose ⟨2, ![256, 128]⟩ [1, 0] Wb ht') := by
  funext j
  obtain ⟨r, c, rfl⟩ : ∃ (r : Fin N) (c : Fin 128), j = ix2 r c := ⟨j 0, j 1, eq_ix2 j⟩
  rw [slice2_axis1_apply 128 _ hs r c ⟨128 + c.val, by have := c.isLt; omega⟩ rfl,
    StackMember.dotGeneral_plain_apply, proj_apply]
  refine Finset.sum_congr rfl fun k _ => ?_
  rw [stackedT_right Wf Wb hc ht k _ c rfl, transpose_ix2_apply Wb ht' k c]

end Stacked

end Cert.FusedProjection

end
-- ==== Proof.KernelArray.lean ====
/-
  What the projection kernel leaves in its output array, at the ideal values.

  The grid has 50 points. At point `t` the body loads rows `2000 t … 2000 t + 1999` of `x` (all 256 columns) and the
  whole 256×256 weight matrix `w`, multiplies the two blocks into a zero accumulator and stores the 2000×256 product as
  rows `2000 t … 2000 t + 1999` of the output. A change of float format is the identity on the extended reals, so entry
  `(p, q)` of the stored block is `∑ k, x (2000 t + p, k) * w (k, q)`: row `2000 t + p` of the one product `x · w`. The 50
  row blocks tile the 100000 rows, so after the run the output array is `x · w` everywhere.
-/
import proofs.«125296_j34772055229049_1_alg».proof.Proof.Gen.KernelIdeal.Frame
import proofs.«125296_j34772055229049_1_alg».proof.Proof.LibPlainMatmul
import proofs.«125296_j34772055229049_1_alg».proof.Proof.FusedProjection
import Idealize.ShloMosaic.Lib.Pipeline.Value
import Idealize.ShloMosaic.Lib.ValueIdx

set_option maxRecDepth 16384

noncomputable section

namespace Cert.KernelIdeal.Projected

open Cert.KernelIdeal Cert.KernelIdeal.Gen Cert.FusedProjection
open Idealize.ShloMosaic Idealize.ShloMosaic.TcCoe Idealize.ShloMosaic.ValueIdx Idealize.SL.Sem
open Idealize.ShloMosaic.Pipeline (Dat Cfg Window)
open scoped BigOperators

/-! ## One block product at an entry -/

/-- The body's stored value at entry `(p, q)` of the block: the loaded rows of `x` against the loaded weight matrix,
    summed over the 256 contraction coordinates (the casts to bf16 and the same-shape cast are the identity). -/
theorem block_entry (xb : Vec Ideal S2000x256 .f32) (wb : Vec Ideal S256x256 .f32) (p : Fin 2000) (q : Fin 256) :
    k0_pay1 (F := Ideal) xb wb (ix2 p q) = ∑ k : Fin 256, xb (ix2 p k) * wb (ix2 k q) := by
  unfold k0_pay1
  refine (Cert.PlainMatmul.matmul_zero_apply (M := 2000) (K := 256) (N := 256) none _ _ p q).trans ?_
  refine Finset.sum_congr rfl fun k _ => ?_
  rw [truncf_apply, truncf_apply, shapeCast_self]

/-- A ROW BLOCK OF THE PRODUCT. If the loaded block `xb` holds rows `2000 b, 2000 b + 1, …` of `X` and the loaded weights
    are `W`, the stored block's entry at `y` is the entry of the product `X · W` at row `2000 b + y 0`, column `y 1`. -/
theorem block_is_rows (X : FVec Ideal S100000x256 .f32) (W : FVec Ideal S256x256 .f32)
    (xb : Vec Ideal S2000x256 .f32) (wb : Vec Ideal S256x256 .f32) (b : Nat)
    (hx : ∀ (p : Fin 2000) (k : Fin 256) (r : Fin 100000), r.val = b * 2000 + p.val → xb (ix2 p k) = X (ix2 r k))
    (hw : ∀ k q : Fin 256, wb (ix2 k q) = W (ix2 k q))
    (y : S2000x256.Idx) (i : S100000x256.Idx) (h0 : (i 0).val = b * 2000 + (y 0).val) (h1 : (i 1).val = (y 1).val) :
    k0_pay1 (F := Ideal) xb wb y = proj X W i := by
  obtain ⟨p, q, rfl⟩ : ∃ (p : Fin 2000) (q : Fin 256), y = ix2 p q := ⟨y 0, y 1, eq_ix2 y⟩
  obtain ⟨r, s, rfl⟩ : ∃ (r : Fin 100000) (s : Fin 256), i = ix2 r s := ⟨i 0, i 1, eq_ix2 i⟩
  obtain rfl : s = q := Fin.ext h1
  rw [block_entry, proj_apply]
  exact Finset.sum_congr rfl fun k _ => by rw [hx p k r h0, hw k s]

/-! ## The arrays the region finds, under their literal types -/

variable (m : (ℓ : Loc nD τ sig) → Buf (Elt Ideal) ℓ)

/-- `x` as the region finds it. -/
abbrev xarr (c : Dev nD) : FVec Ideal S100000x256 .f32 := V m c main_arg0
/-- The 256×256 weight matrix as the region finds it. -/
abbrev warr (c : Dev nD) : FVec Ideal S256x256 .f32 := V m c main_v41

/-! ## What a grid point writes back -/

theorem zeros2 : (![0, 0] : Fin 2 → Nat) = fun _ => 0 := funext fun a => by fin_cases a <;> rfl

/-- The printed index maps over the grid: `x`'s row block moves with the output's, every column block is block 0, the
    weight matrix is one block. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every row block of the output is some point's. -/
theorem block_onto : ∀ b : Fin 50, ∃ t : Fin cfg0.N, win0_2.index t = ![b.val, 0] :=
  (by decide +kernel : ∀ b : Fin 50, ∃ t : Fin grid0.N, win0_2.index t = ![b.val, 0])

set_option maxHeartbeats 2000000 in
/-- WHAT POINT `t` WRITES BACK is block `t` of the one product `x · w`. -/
theorem flushed_eq (c : Dev nD) (t : Fin cfg0.N) :
    (dats m 0 c).flushed 2 t = ((cfg0.win 2).blk t).view.read (Elt Ideal) (proj (xarr m c) (warr m c)) := by
  show (cfg0.win 2).cut (grid0.coords t) ((dats m 0 c).after 2 t) = _
  rw [after0_2]
  unfold out0_2
  rw [View.canon_unit_zero zeros2]
  simp only [View.ld_unit_zero (S := S2000x256) zeros2, View.ld_unit_zero (S := S256x256) zeros2]
  obtain ⟨e0, e1, e2, e3, e4, e5⟩ := block_indices t
  funext y
  -- rows of `x` in the loaded block, and the loaded weights, as entries of the arrays the region finds
  have hx : ∀ (p : Fin 2000) (k : Fin 256) (r : Fin 100000), r.val = win0_2.index t (0 : Fin 2) * 2000 + p.val →
      iblk m c 0 t (ix2 p k) = xarr m c (ix2 r k) := by
    intro p k r hr
    show xarr m c (((cfg0.win 0).blk t).view.emb (ix2 p k)) = xarr m c (ix2 r k)
    refine congrArg (xarr m c) (funext fun a => Fin.ext ?_)
    match a with
    | ⟨0, _⟩ => show win0_0.index t (0 : Fin 2) * 2000 + 1 * p.val = r.val; omega
    | ⟨1, _⟩ => show win0_0.index t (1 : Fin 2) * 256 + 1 * k.val = k.val; omega
  have hw : ∀ k q : Fin 256, iblk m c 1 t (ix2 k q) = warr m c (ix2 k q) := by
    intro k q
    show warr m c (((cfg0.win 1).blk t).view.emb (ix2 k q)) = warr m c (ix2 k q)
    refine congrArg (warr m c) (funext fun a => Fin.ext ?_)
    match a with
    | ⟨0, _⟩ => show win0_1.index t (0 : Fin 2) * 256 + 1 * k.val = k.val; omega
    | ⟨1, _⟩ => show win0_1.index t (1 : Fin 2) * 256 + 1 * q.val = q.val; omega
  show k0_pay1 (F := Ideal) (iblk m c 0 t) (iblk m c 1 t) ((win0 2).xinj (grid0.coords t) y)
    = proj (xarr m c) (warr m c) (((cfg0.win 2).blk t).view.emb y)
  exact block_is_rows (xarr m c) (warr m c) (iblk m c 0 t) (iblk m c 1 t) (win0_2.index t (0 : Fin 2)) hx hw
    ((win0 2).xinj (grid0.coords t) y) (((cfg0.win 2).blk t).view.emb y)
    (by show win0_2.index t (0 : Fin 2) * 2000 + 1 * (y 0).val = win0_2.index t (0 : Fin 2) * 2000 + (y 0).val; omega)
    (by show win0_2.index t (1 : Fin 2) * 256 + 1 * (y 1).val = (y 1).val; omega)

/-! ## The blocks tile the output -/

/-- An index of the output is in point `t`'s block iff each coordinate is in the block's range on its axis. -/
theorem mem_block (t : Fin cfg0.N) (i : S100000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v42).slice (win0_2.rect t)).set ↔ _
  rw [View.set_slice_whole, Rect.mem_set_unit]
  exact Iff.rfl

/-- Row `r` of the output lies in the block of the point whose row block is `r / 2000`. -/
theorem covered (c : Dev nD) (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := block_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE OUTPUT ARRAY after the run is the one product `x · w` of the arrays the region finds. -/
theorem output_eq (c : Dev nD) : (dats m 0 c).arrAt 2 cfg0.N = proj (xarr m c) (warr m c) :=
  (dats m 0 c).arrAt_eq_of_cover 2 (proj (xarr m c) (warr m c)) (fun t _ => flushed_eq m c t) (covered c)

end Cert.KernelIdeal.Projected

end
-- ==== Proof.Joined.lean ====
/-
  The kernel's result is the reference's function of the arguments.

  Both programs build the same edge list, endpoints and edge weights from the edge index, and end with the same
  aggregation, concatenation and bias; they differ in one place. The reference multiplies `x` by `Wfᵀ` and by `Wbᵀ`
  apart; the kernel multiplies `x` once by the stacked, transposed weights `[Wf; Wb]ᵀ` and cuts the product into its
  left and right 128 columns. Entry by entry each half is the same sum over the 256 contraction coordinates as the
  reference's product, so the halves are the reference's two projected arrays, and everything downstream is one
  function applied to equal operands.
-/
import proofs.«125296_j34772055229049_1_alg».proof.Proof.KernelArray
import proofs.«125296_j34772055229049_1_alg».proof.Proof.KernelHost
import proofs.«125296_j34772055229049_1_alg».proof.Proof.ReferenceValue
import proofs.«125296_j34772055229049_1_alg».proof.Proof.FusedProjection

set_option maxRecDepth 16384

noncomputable section

namespace Cert.Proof.Joined

open Cert.KernelIdeal.Projected Cert.ReferenceIdeal.RunValue Cert.FusedProjection
open Idealize.ShloMosaic Idealize.ShloMosaic.TcCoe Idealize.SL.Sem

/-! ## The two halves of the one product are the two products (at the ideal values) -/

/-- The left 128 columns of `x · [Wf; Wb]ᵀ` are the reference's `x · Wfᵀ`. -/
theorem left_half (x0 : FVec Ideal Cert.KernelIdeal.S100000x256 .f32) (x2 x3 : FVec Ideal Cert.KernelIdeal.S128x256 .f32)
    (hs : Cert.KernelIdeal.S100000x256.Slices ![0, 0] Cert.KernelIdeal.S100000x128) :
    extractStridedSlice Cert.KernelIdeal.S100000x128 ![0, 0] (proj x0 (stacked (F := Ideal) x2 x3)) hs
      = projected (F := Ideal) x0 x2 := by
  unfold stacked projected
  exact left_columns x2 x3 _ _ x0 _ hs

/-- The right 128 columns are the reference's `x · Wbᵀ`. -/
theorem right_half (x0 : FVec Ideal Cert.KernelIdeal.S100000x256 .f32) (x2 x3 : FVec Ideal Cert.KernelIdeal.S128x256 .f32)
    (hs : Cert.KernelIdeal.S100000x256.Slices ![0, 128] Cert.KernelIdeal.S100000x128) :
    extractStridedSlice Cert.KernelIdeal.S100000x128 ![0, 128] (proj x0 (stacked (F := Ideal) x2 x3)) hs
      = projected (F := Ideal) x0 x3 := by
  unfold stacked projected
  exact right_columns x2 x3 _ _ x0 _ hs

/-! ## The kernel's result -/

open Cert.KernelIdeal Cert.KernelIdeal.Gen in
/-- What the kernel program's frame run leaves in its result buffer is the reference's result function of the kernel
    program's own arguments. -/
theorem kernel_value (m : (ℓ : Loc nD τ sig) → Buf (Elt Ideal) ℓ) (c : Dev nD) :
    Pipeline.afterTail₀ cfgs (dats m) 0 (V0 m) [hostOps1] c main_v74
      = result (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have hx : xarr m c = m ((c : Thread nD τ).loc main_arg0) := V_main_arg0 m c
  have hw : warr m c = stacked (m ((c : Thread nD τ).loc main_arg2)) (m ((c : Thread nD τ).loc main_arg3)) := stacked_eq m c
  unfold Cert.ReferenceIdeal.RunValue.result
  rw [result_eq, col_eq, row_eq, weight_eq, V_main_arg4, output_eq, hx, hw, left_half, right_half]

open Cert.KernelIdeal Cert.KernelIdeal.Gen in
/-- The kernel program's run, with its result named: every weakly fair execution terminates with the result buffer at
    the reference's result function of the arguments, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v74)
        = result (F := Ideal) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v74 (Pipeline.mem_restRefs_of main_v74 (by decide) (by decide))).trans (kernel_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Proof.Joined

end
-- ==== Proof.lean ====
/-
  The kernel computes a directed graph convolution: from the edge index it builds every edge's weight
  `invSqrt(outdeg)[row] · invSqrt(indeg)[col]` (self-loops added), projects the node features `x` by the two weight
  matrices `Wf`, `Wb`, aggregates `(x · Wfᵀ)[row] · ew` over `col` and `(x · Wbᵀ)[col] · ew` over `row`, lays the two
  results side by side and adds the bias. Its only Pallas kernel is the projection, done ONCE against the stacked weights
  `[Wf; Wb]ᵀ` in 50 row blocks of 2000; the reference does the two projections apart. Over the extended reals the left and
  right halves of the one product are, entry by entry, the same 256-term sums as the two products (Proof/FusedProjection.lean),
  the kernel's output array is that one product (Proof/KernelArray.lean), and all the host operations around it are the
  reference's own, applied to equal operands (Proof/KernelHost.lean, Proof/ReferenceValue.lean, Proof/Joined.lean). No finiteness of the inputs is
  used: the two sides are the same sums, term by term.
  The frames of the two kernel programs are the generated frame certificates; the reference's frame is its run with the
  result dropped; the ideal pass rewrote nothing, so `preserves` is `True`.
-/
import proofs.«125296_j34772055229049_1_alg».proof.Defs
import proofs.«125296_j34772055229049_1_alg».proof.Proof.Gen.Kernel
import proofs.«125296_j34772055229049_1_alg».proof.Proof.Gen.Kernel.Skeleton
import proofs.«125296_j34772055229049_1_alg».proof.Proof.Gen.Kernel.Launch
import proofs.«125296_j34772055229049_1_alg».proof.Proof.Gen.Kernel.Points
import proofs.«125296_j34772055229049_1_alg».proof.Proof.Gen.Kernel.Frame
import proofs.«125296_j34772055229049_1_alg».proof.Proof.Gen.KernelIdeal
import proofs.«125296_j34772055229049_1_alg».proof.Proof.Gen.KernelIdeal.Skeleton
import proofs.«125296_j34772055229049_1_alg».proof.Proof.Gen.KernelIdeal.Launch
import proofs.«125296_j34772055229049_1_alg».proof.Proof.Gen.KernelIdeal.Points
import proofs.«125296_j34772055229049_1_alg».proof.Proof.Gen.KernelIdeal.Frame
import proofs.«125296_j34772055229049_1_alg».proof.Proof.Gen.ReferenceIdeal
import proofs.«125296_j34772055229049_1_alg».proof.Proof.Gen.Pre_finite_inputs
import proofs.«125296_j34772055229049_1_alg».proof.Proof.ReferenceValue
import proofs.«125296_j34772055229049_1_alg».proof.Proof.Joined
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.RunValue.run (F := Ideal) m ρ)

/-- Both programs end at the reference's result function of the kernel program's arguments: the kernel program by its
    run read back, the reference by its own run and the agreement of the two memories on the arguments. -/
theorem algebraic : Cert.algebraic_KernelIdeal_ReferenceIdeal := by
  intro m ρ m' ρ' _ hagree
  refine ⟨_, Cert.Proof.Joined.kernel_run m ρ, ?_⟩
  refine (θ_run Cert.ReferenceIdeal.defs _ _).mono (fun _ h c => ⟨(h c).1.trans ?_, (h c).2⟩)
    (Cert.ReferenceIdeal.RunValue.run (F := Ideal) m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
